-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x64x128x128 : Shape := ⟨5, ![16, 4, 64, 128, 128]⟩
abbrev S_ : Shape := ⟨0, ![]⟩

class Facts : Prop where
  bcast_S_S16x4x64x128x128 : S_.BroadcastsInDim S16x4x64x128x128 (![] : Fin 0 → Fin S16x4x64x128x128.rank)
  reducesTo_S16x4x64x128x128_S_d0_1_2_3_4 : S16x4x64x128x128.ReducesTo [0, 1, 2, 3, 4] S_
  h_S_ : 0 < S_.numel

variable [Facts]

def fn {F : FTy → Type} [FloatOps F] (main_arg0 : FVec F S16x4x64x128x128 .f32) : IVec S_ 1 :=
  let main_v0 : FVec F S16x4x64x128x128 .f32 := Host.absf main_arg0
  let main_cst : FVec F S_ .f32 := constant S_ .f32 0x7F800000#32
  let main_v1 : FVec F S16x4x64x128x128 .f32 := broadcastInDim S16x4x64x128x128 ![] bcast_S_S16x4x64x128x128 main_cst
  let main_v2 : IVec S16x4x64x128x128 1 := cmpf .olt main_v0 main_v1
  let main_c : IVec S_ 1 := constantI S_ 1 1#1
  let main_v3 : IVec S_ 1 := (fun x v => Host.reduce IntOp.andi x v reducesTo_S16x4x64x128x128_S_d0_1_2_3_4 h_S_) main_v2 main_c
  main_v3
-- ==== Kernel.lean ====
abbrev S16x4x64x128x128 : Shape := ⟨5, ![16, 4, 64, 128, 128]⟩
abbrev S16x1x4x128x128 : Shape := ⟨5, ![16, 1, 4, 128, 128]⟩
abbrev S1x4x128x128 : Shape := ⟨4, ![1, 4, 128, 128]⟩
abbrev S1x1x4x128x128 : Shape := ⟨5, ![1, 1, 4, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S16x4x64x128x128, .f32⟩
  | .hbm, ⟨1, _⟩ => ⟨S16x4x64x128x128, .f32⟩
  | .local _ .vmem, ⟨0, _⟩ => ⟨S16x1x4x128x128, .f32⟩
  | .local _ .vmem, ⟨1, _⟩ => ⟨S16x1x4x128x128, .f32⟩
  | .local _ .vmem, ⟨2, _⟩ => ⟨S16x1x4x128x128, .f32⟩
  | .local _ .vmem, ⟨3, _⟩ => ⟨S16x1x4x128x128, .f32⟩
  | _, _ => ⟨S16x4x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 2 → Memref sig .tc .vmem S16x1x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S16x1x4x128x128_S16x1x4x128x128_0_0_0_0_0 : ∀ a, (![0, 0, 0, 0, 0] : Fin 5 → Nat) a + S16x1x4x128x128.size a ≤ S16x1x4x128x128.size a
  h_S16x1x4x128x128 : 0 < S16x1x4x128x128.numel
  reduces_S16x1x4x128x128_S1x4x128x128 : S16x1x4x128x128.Reduces [0] S1x4x128x128
  shapeCasts_S1x4x128x128_S1x1x4x128x128 : S1x4x128x128.ShapeCasts S1x1x4x128x128
  broadcasts_S1x1x4x128x128_S16x1x4x128x128 : S1x1x4x128x128.Broadcasts S16x1x4x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x4x128x128.size a ≤ S16x4x64x128x128.size a
  hwx0_0 : ∀ i : grid0.Coords, EltTy.bits .f32 = 32 ∨ (Rect.block (s := S16x4x64x128x128) S16x1x4x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x4x128x128.size a ≤ S16x4x64x128x128.size a
  hwx0_1 : ∀ i : grid0.Coords, EltTy.bits .f32 = 32 ∨ (Rect.block (s := S16x4x64x128x128) S16x1x4x128x128.size (cc0_transform_1 i) (hinb0_1 i)).WholeWords (EltTy.packing .f32)

variable [Facts₀]

abbrev win0_0 : Pipeline.Window sig grid0 :=
  Pipeline.Window.ofSpec (Memref.whole main_arg0) S16x1x4x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x1x4x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4x64x128x128 : Shape := ⟨5, ![16, 4, 64, 128, 128]⟩
abbrev S_ : Shape := ⟨0, ![]⟩
abbrev S4x64x128x128 : Shape := ⟨4, ![4, 64, 128, 128]⟩
abbrev S1x4x64x128x128 : Shape := ⟨5, ![1, 4, 64, 128, 128]⟩

abbrev nBuf : Space → Nat
  | .hbm => 7
  | .vmem => 0
  | .smem => 0
  | _ => 0

abbrev bufTy : (tb : Table) → Fin (tcTables nBuf tb) → BufTy
  | .hbm, ⟨0, _⟩ => ⟨S16x4x64x128x128, .f32⟩
  | .hbm, ⟨1, _⟩ => ⟨S_, .f32⟩
  | .hbm, ⟨2, _⟩ => ⟨S4x64x128x128, .f32⟩
  | .hbm, ⟨3, _⟩ => ⟨S1x4x64x128x128, .f32⟩
  | .hbm, ⟨4, _⟩ => ⟨S16x4x64x128x128, .f32⟩
  | .hbm, ⟨5, _⟩ => ⟨S16x4x64x128x128, .f32⟩
  | .hbm, ⟨6, _⟩ => ⟨S16x4x64x128x128, .f32⟩
  | _, _ => ⟨S16x4x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  reducesTo_S16x4x64x128x128_S4x64x128x128_d0 : S16x4x64x128x128.ReducesTo [0] S4x64x128x128
  h_S_ : 0 < S_.numel
  bcast_S4x64x128x128_S1x4x64x128x128_1_2_3_4 : S4x64x128x128.BroadcastsInDim S1x4x64x128x128 (![1, 2, 3, 4] : Fin 4 → Fin S1x4x64x128x128.rank)
  bcast_S1x4x64x128x128_S16x4x64x128x128_0_1_2_3_4 : S1x4x64x128x128.BroadcastsInDim S16x4x64x128x128 (![0, 1, 2, 3, 4] : Fin 5 → Fin S16x4x64x128x128.rank)

variable [Facts₀]

class Facts : Prop extends Facts₀ where

variable [Facts]
-- ==== Proof.FrameSum.lean ====
/-
  The function both programs compute, stated once over the whole array.

  The input is a stack of 16 frames, each of shape [4, 64, 128, 128].  Every entry of the result is the
  square of the input entry times the sum, over the 16 frames, of the entries at the same position inside
  the frame:

      out (n, b, c, h, w) = x (n, b, c, h, w) · x (n, b, c, h, w) · Σ_k x (k, b, c, h, w).

  The products are taken in this grouping, (x · x) · Σ, on the extended reals; nothing here is rearranged,
  so no finiteness of the entries is needed.
-/
import Idealize.ShloMosaic.PureOps.Ideal
import Idealize.ShloMosaic.Lib.ValueIdx

noncomputable section

namespace Cert.FrameSum

open Idealize.ShloMosaic Idealize.ShloMosaic.ValueIdx

/-- The stack of frames: 16 frames of shape [4, 64, 128, 128]. -/
abbrev Frames : Shape := ⟨5, ![16, 4, 64, 128, 128]⟩

/-- The position `(b, c, h, w)` of `i` inside its frame, in frame `k`. -/
abbrev inFrame (i : Frames.Idx) (k : Fin 16) : Frames.Idx := ix5 k (i 1) (i 2) (i 3) (i 4)

/-- The sum over the 16 frames of the entries at `i`'s position inside the frame. -/
def frameSum (x : Frames.Idx → EReal) (i : Frames.Idx) : EReal := ∑ k : Fin 16, x (inFrame i k)

/-- The result: the squared entry times the sum over the frames. -/
def sqTimesFrameSum (x : Frames.Idx → EReal) : Frames.Idx → EReal :=
  fun i => x i * x i * frameSum x i

theorem sqTimesFrameSum_apply (x : Frames.Idx → EReal) (i : Frames.Idx) :
    sqTimesFrameSum x i = x i * x i * ∑ k : Fin 16, x (inFrame i k) := rfl

end Cert.FrameSum

end
-- ==== Proof.ReferenceValue.lean ====
/-
  The reference computes the squared entry times the sum over the frames.

  Its six host operations are: the constant 0; the sum of the input over the frame axis started from that 0,
  giving an array [4, 64, 128, 128]; that array with a unit frame axis put in front and then repeated over the 16
  frames; the input times itself; and the product of the last two.  Read at an index (n, b, c, h, w) this is
  (x · x) at the index times (0 + Σ_k x (k, b, c, h, w)), and 0 + s = s on the extended reals.
-/
import proofs.«176395_j77988016161334_1_alg».proof.Proof.Gen.ReferenceIdeal.Read
import proofs.«176395_j77988016161334_1_alg».proof.Proof.FrameSum

noncomputable section

namespace Cert.ReferenceIdeal.FrameSumValue

open Cert.ReferenceIdeal Cert.ReferenceIdeal.Gen Cert.ReferenceIdeal.Read Cert.FrameSum
open Idealize.ShloMosaic Idealize.ShloMosaic.ValueIdx

/-- Through the two broadcasts and the reduction, the entry of the input the sum's `k`-th term reads for the
    result's index `i` is the one at `i`'s position inside frame `k`. -/
theorem summand_idx (i : S16x4x64x128x128.Idx) (k : Fin 16) :
    idx_main_v0 (idx_main_v1 (idx_main_v3 i)) k = inFrame i k :=
  funext fun a => by
    match a with
    | ⟨0, _⟩ => rfl
    | ⟨1, _⟩ => rfl
    | ⟨2, _⟩ => rfl
    | ⟨3, _⟩ => rfl
    | ⟨4, _⟩ => rfl

/-- The reference's result, as a function of its argument, is the squared entry times the sum over the frames. -/
theorem result_eq (x : (⟨S16x4x64x128x128, .f32⟩ : BufTy).Contents (Elt Ideal)) :
    val_main_v4 (F := Ideal) x = sqTimesFrameSum x := by
  funext i
  rw [val_main_v4_apply, val_main_v2_apply, val_main_v3_apply, val_main_v1_apply, val_main_v0_apply,
    val_main_cst_apply, sqTimesFrameSum_apply]
  simp only [summand_idx, Ideal.mulf_def, Ideal.ofBits_def, Ideal.ofBits_zero_f32, zero_add]

end Cert.ReferenceIdeal.FrameSumValue

end
-- ==== Proof.KernelValue.lean ====
/-
  The kernel computes the squared entry times the sum over the frames, block by block.

  The grid has 4 · 16 points (b, g).  At a point the kernel stages the block of shape [16, 1, 4, 128, 128] that
  holds, for batch entry b and the four channels 4g … 4g + 3, ALL 16 frames; the output block has the same
  place in the output array.  On a block the body forms the sum over the leading (frame) axis, keeps it as a
  [1, 1, 4, 128, 128] array, repeats it over the 16 frames and multiplies it into the entrywise square of the
  block.  Because the whole frame axis lies inside every block, the sum over the block's leading axis is the sum
  over the array's frame axis at the same position, so what a point writes back is the block of the
  whole-array function `sqTimesFrameSum`; the 64 blocks tile the array, so the array ends holding that function.
-/
import proofs.«176395_j77988016161334_1_alg».proof.Proof.Gen.KernelIdeal.Value
import proofs.«176395_j77988016161334_1_alg».proof.Proof.FrameSum
import Idealize.ShloMosaic.PureOps.Ideal.Laws
import Idealize.ShloMosaic.Lib.ValueIdx

noncomputable section

namespace Cert.KernelIdeal.FrameSumValue

open Cert.KernelIdeal Cert.KernelIdeal.Gen Cert.FrameSum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The input array as the region finds it on core `c`, at its literal type. -/
abbrev xarr (c : Dev nD) : Vec Ideal S16x4x64x128x128 .f32 := V m c main_arg0

/-- The body's loads and its store go through the whole staging buffer: the rectangle at offset zero. -/
theorem zero_off : (![0, 0, 0, 0, 0] : Fin 5 → Nat) = fun _ => 0 := funext fun a => by fin_cases a <;> rfl

/-- WHAT THE BODY LEAVES IN THE OUTPUT BLOCK, at a block index `y = (n, 0, c, h, w)`: the square of the staged block's
    entry there times the sum of the staged block over its leading axis at `(0, c, h, w)`. -/
theorem block_apply (x0 : Vec Ideal S16x1x4x128x128 .f32) (y : S16x1x4x128x128.Idx) :
    out0_1 x0 y = x0 y * x0 y * ∑ k : Fin 16, x0 (ix5 k (y 1) (y 2) (y 3) (y 4)) := by
  have hy1 : (y 1).val < 1 := (y 1).isLt
  unfold out0_1
  rw [Value.canon1_eq]
  simp only [View.ld_unit_zero (S := S16x1x4x128x128) zero_off]
  have e0 : Value.ix1_0 y = y := funext fun a => Fin.ext (by
    match a with
    | ⟨0, _⟩ => rfl
    | ⟨1, _⟩ => show 0 = (y 1).val; omega
    | ⟨2, _⟩ => rfl
    | ⟨3, _⟩ => rfl
    | ⟨4, _⟩ => rfl)
  have e1 : Value.ix1_1 y = y := funext fun a => Fin.ext (by
    match a with
    | ⟨0, _⟩ => rfl
    | ⟨1, _⟩ => show 0 = (y 1).val; omega
    | ⟨2, _⟩ => rfl
    | ⟨3, _⟩ => rfl
    | ⟨4, _⟩ => rfl)
  show x0 (Value.ix1_0 y) * x0 (Value.ix1_1 y)
      * (multiReduction (F := Ideal) .add [0] S1x4x128x128 x0 0x00000000#32 reduces_S16x1x4x128x128_S1x4x128x128 (.inl rfl) rfl) (Value.ix1_2 y) = _
  rw [e0, e1]
  refine congrArg (x0 y * x0 y * ·) ?_
  refine (Ideal.multiReduction_add_single x0 _ reduces_S16x1x4x128x128_S1x4x128x128 (.inl rfl) rfl (Value.ix1_2 y)).trans ?_
  refine Finset.sum_congr rfl fun k _ => congrArg x0 (funext fun a => Fin.ext ?_)
  match a with
  | ⟨0, _⟩ => rfl
  | ⟨1, _⟩ => show 0 = (y 1).val; omega
  | ⟨2, _⟩ => rfl
  | ⟨3, _⟩ => rfl
  | ⟨4, _⟩ => rfl

/-- The printed index maps, decided over the 64 grid points: both windows' blocks start at 0 on the frame axis and on
    the two spatial axes (those axes lie whole inside a block), and the input's block moves with the output's on the
    batch and channel axes. -/
theorem idx_facts : ∀ t : Fin cfg0.N,
    win0_0.index t (0 : Fin 5) = 0 ∧ win0_1.index t (0 : Fin 5) = 0
    ∧ win0_0.index t (1 : Fin 5) = win0_1.index t (1 : Fin 5)
    ∧ win0_0.index t (2 : Fin 5) = win0_1.index t (2 : Fin 5)
    ∧ win0_0.index t (3 : Fin 5) = 0 ∧ win0_1.index t (3 : Fin 5) = 0
    ∧ win0_0.index t (4 : Fin 5) = 0 ∧ win0_1.index t (4 : Fin 5) = 0 :=
  (by decide +kernel : ∀ t : Fin grid0.N, _)

/-- Every (batch entry, channel group) is SOME point's output block. -/
theorem idx_onto : ∀ (q1 : Fin 4) (q2 : Fin 16), ∃ t : Fin cfg0.N, win0_1.index t = ![0, q1.val, q2.val, 0, 0] :=
  (by decide +kernel : ∀ (q1 : Fin 4) (q2 : Fin 16), ∃ t : Fin grid0.N, win0_1.index t = ![0, q1.val, q2.val, 0, 0])

/-- WHAT POINT `t` WRITES BACK is block `t` of `sqTimesFrameSum` of the input array: the staged block's entry at a
    block index is the array's entry under it, and the staged block's leading axis is the array's whole frame axis. -/
theorem flushed_eq (c : Dev nD) (t : Fin cfg0.N) :
    (dats m 0 c).flushed 1 t = ((cfg0.win 1).blk t).view.read (Elt Ideal) (sqTimesFrameSum (V m c main_arg0)) := by
  rw [Value.flushed1]
  obtain ⟨a0, b0, e1, e2, a3, b3, a4, b4⟩ := idx_facts t
  funext j
  have hj0 : (j 0).val < 16 := (j 0).isLt
  have hj1 : (j 1).val < 1 := (j 1).isLt
  have hj2 : (j 2).val < 4 := (j 2).isLt
  have hj3 : (j 3).val < 128 := (j 3).isLt
  have hj4 : (j 4).val < 128 := (j 4).isLt
  show out0_1 (iblk m c 0 t) j = sqTimesFrameSum (V m c main_arg0) (((cfg0.win 1).blk t).view.emb j)
  refine (block_apply (iblk m c 0 t) j).trans ?_
  rw [sqTimesFrameSum_apply]
  show xarr m c (((cfg0.win 0).blk t).view.emb j) * xarr m c (((cfg0.win 0).blk t).view.emb j)
      * ∑ k : Fin 16, xarr m c (((cfg0.win 0).blk t).view.emb (ix5 k (j 1) (j 2) (j 3) (j 4)))
    = xarr m c (((cfg0.win 1).blk t).view.emb j) * xarr m c (((cfg0.win 1).blk t).view.emb j)
      * ∑ k : Fin 16, xarr m c (inFrame (((cfg0.win 1).blk t).view.emb j) k)
  have h0 : ((cfg0.win 0).blk t).view.emb j = ((cfg0.win 1).blk t).view.emb j := by
    funext a; apply Fin.ext
    match a with
    | ⟨0, _⟩ => show win0_0.index t (0 : Fin 5) * 16 + 1 * (j 0).val = win0_1.index t (0 : Fin 5) * 16 + 1 * (j 0).val; omega
    | ⟨1, _⟩ => show win0_0.index t (1 : Fin 5) * 1 + 1 * (j 1).val = win0_1.index t (1 : Fin 5) * 1 + 1 * (j 1).val; omega
    | ⟨2, _⟩ => show win0_0.index t (2 : Fin 5) * 4 + 1 * (j 2).val = win0_1.index t (2 : Fin 5) * 4 + 1 * (j 2).val; omega
    | ⟨3, _⟩ => show win0_0.index t (3 : Fin 5) * 128 + 1 * (j 3).val = win0_1.index t (3 : Fin 5) * 128 + 1 * (j 3).val; omega
    | ⟨4, _⟩ => show win0_0.index t (4 : Fin 5) * 128 + 1 * (j 4).val = win0_1.index t (4 : Fin 5) * 128 + 1 * (j 4).val; omega
  have hk : ∀ k : Fin 16, ((cfg0.win 0).blk t).view.emb (ix5 k (j 1) (j 2) (j 3) (j 4))
      = inFrame (((cfg0.win 1).blk t).view.emb j) k := by
    intro k
    have hk16 : k.val < 16 := k.isLt
    funext a; apply Fin.ext
    match a with
    | ⟨0, _⟩ => show win0_0.index t (0 : Fin 5) * 16 + 1 * k.val = k.val; omega
    | ⟨1, _⟩ => show win0_0.index t (1 : Fin 5) * 1 + 1 * (j 1).val = win0_1.index t (1 : Fin 5) * 1 + 1 * (j 1).val; omega
    | ⟨2, _⟩ => show win0_0.index t (2 : Fin 5) * 4 + 1 * (j 2).val = win0_1.index t (2 : Fin 5) * 4 + 1 * (j 2).val; omega
    | ⟨3, _⟩ => show win0_0.index t (3 : Fin 5) * 128 + 1 * (j 3).val = win0_1.index t (3 : Fin 5) * 128 + 1 * (j 3).val; omega
    | ⟨4, _⟩ => show win0_0.index t (4 : Fin 5) * 128 + 1 * (j 4).val = win0_1.index t (4 : Fin 5) * 128 + 1 * (j 4).val; omega
  rw [h0]
  simp only [hk]

/-- An index of the array is in point `t`'s output block iff each coordinate is in the block's range on its axis. -/
theorem mem_blk (t : Fin cfg0.N) (i : S16x4x64x128x128.Idx) :
    i ∈ ((cfg0.win 1).blk t).view.set ↔ ∀ a : Fin 5, win0_1.index t a * S16x1x4x128x128.size a ≤ (i a).val
      ∧ (i a).val < win0_1.index t a * S16x1x4x128x128.size a + S16x1x4x128x128.size a := by
  show i ∈ ((View.whole main_v0).slice (win0_1.rect t)).set ↔ _
  rw [View.set_slice_whole, Rect.mem_set_unit]
  exact Iff.rfl

/-- THE BLOCKS TILE THE ARRAY: the index `(n, b, c, h, w)` lies in the block of the point for batch entry `b` and
    channel group `c / 4`. -/
theorem covered (i : S16x4x64x128x128.Idx) :
    ∃ t : Fin cfg0.N, (cfg0.win 1).flush t = true ∧ i ∈ ((cfg0.win 1).blk t).view.set := by
  have hi0 : (i 0).val < 16 := (i 0).isLt
  have hi1 : (i 1).val < 4 := (i 1).isLt
  have hi2 : (i 2).val < 64 := (i 2).isLt
  have hi3 : (i 3).val < 128 := (i 3).isLt
  have hi4 : (i 4).val < 128 := (i 4).isLt
  obtain ⟨t, ht⟩ := idx_onto ⟨(i 1).val, hi1⟩ ⟨(i 2).val / 4, by omega⟩
  have q0 : win0_1.index t (0 : Fin 5) = 0 := congrFun ht 0
  have q1 : win0_1.index t (1 : Fin 5) = (i 1).val := congrFun ht 1
  have q2 : win0_1.index t (2 : Fin 5) = (i 2).val / 4 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 16 ≤ (i 0).val ∧ (i 0).val < win0_1.index t (0 : Fin 5) * 16 + 16; omega
  | ⟨1, _⟩ => show win0_1.index t (1 : Fin 5) * 1 ≤ (i 1).val ∧ (i 1).val < win0_1.index t (1 : Fin 5) * 1 + 1; omega
  | ⟨2, _⟩ => show win0_1.index t (2 : Fin 5) * 4 ≤ (i 2).val ∧ (i 2).val < win0_1.index t (2 : Fin 5) * 4 + 4; omega
  | ⟨3, _⟩ => show win0_1.index t (3 : Fin 5) * 128 ≤ (i 3).val ∧ (i 3).val < win0_1.index t (3 : Fin 5) * 128 + 128; omega
  | ⟨4, _⟩ => show win0_1.index t (4 : Fin 5) * 128 ≤ (i 4).val ∧ (i 4).val < win0_1.index t (4 : Fin 5) * 128 + 128; omega

/-- THE OUTPUT ARRAY after the run is `sqTimesFrameSum` of the input array. -/
theorem final (c : Dev nD) :
    (dats m 0 c).arrAt 1 cfg0.N = sqTimesFrameSum (m ((c : Thread nD τ).loc main_arg0)) :=
  (dats m 0 c).arrAt_eq_of_cover 1 (sqTimesFrameSum (V m c main_arg0)) (fun t _ => flushed_eq m c t) covered

/-- The kernel's run, read: the result array ends at `sqTimesFrameSum` of the argument, the argument unchanged. -/
theorem run : θ_run defs (onTc (τ := τ) (main (F := Ideal))) ⟨m, fun _ => 0, ρ⟩ fun r => ∀ c : Dev nD,
      r.2.mem ((c : Thread nD τ).loc main_v0) = sqTimesFrameSum (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.FrameSumValue

end
-- ==== Proof.lean ====
/-
  The kernel and its reference compute one function of the stack of frames x : [16, 4, 64, 128, 128]:

      out (n, b, c, h, w) = x (n, b, c, h, w) · x (n, b, c, h, w) · Σ_k x (k, b, c, h, w),

  the squared entry times the sum over the 16 frames at the same position (`Cert.FrameSum.sqTimesFrameSum`).

  The reference forms the sum over the frame axis of the whole array (started from 0), repeats it over the
  frames and multiplies it into the entrywise square.  The kernel does the same on blocks that each hold all 16
  frames of one batch entry and four channels; since the frame axis lies whole inside every block, the block's sum
  over its leading axis is the array's sum over the frame axis, and the 64 blocks tile the output.  Both sides take
  the products in the same grouping and the sums are over the same 16 terms, so they agree on all extended reals:
  the finiteness of the input is not used.  The idealized kernel is the kernel's own text read over the extended
  reals (no operation was replaced), so the preservation conjunct is `True`.
-/
import proofs.«176395_j77988016161334_1_alg».proof.Defs
import proofs.«176395_j77988016161334_1_alg».proof.Proof.Gen.Kernel
import proofs.«176395_j77988016161334_1_alg».proof.Proof.Gen.Kernel.Skeleton
import proofs.«176395_j77988016161334_1_alg».proof.Proof.Gen.Kernel.Launch
import proofs.«176395_j77988016161334_1_alg».proof.Proof.Gen.Kernel.Points
import proofs.«176395_j77988016161334_1_alg».proof.Proof.Gen.Kernel.Frame
import proofs.«176395_j77988016161334_1_alg».proof.Proof.Gen.KernelIdeal
import proofs.«176395_j77988016161334_1_alg».proof.Proof.Gen.KernelIdeal.Skeleton
import proofs.«176395_j77988016161334_1_alg».proof.Proof.Gen.KernelIdeal.Launch
import proofs.«176395_j77988016161334_1_alg».proof.Proof.Gen.KernelIdeal.Points
import proofs.«176395_j77988016161334_1_alg».proof.Proof.Gen.KernelIdeal.Frame
import proofs.«176395_j77988016161334_1_alg».proof.Proof.Gen.ReferenceIdeal
import proofs.«176395_j77988016161334_1_alg».proof.Proof.Gen.Pre_finite_inputs
import proofs.«176395_j77988016161334_1_alg».proof.Proof.Gen.KernelIdeal.Value
import proofs.«176395_j77988016161334_1_alg».proof.Proof.Gen.ReferenceIdeal.Run
import proofs.«176395_j77988016161334_1_alg».proof.Proof.Gen.ReferenceIdeal.Read
import proofs.«176395_j77988016161334_1_alg».proof.Proof.FrameSum
import proofs.«176395_j77988016161334_1_alg».proof.Proof.ReferenceValue
import proofs.«176395_j77988016161334_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's six host operations run and leave the argument as it was. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the squared entry times
    the sum over the frames of that argument. -/
theorem algebraic : Cert.algebraic_KernelIdeal_ReferenceIdeal := by
  intro m ρ m' ρ' _ hagree
  refine ⟨fun c => Cert.FrameSum.sqTimesFrameSum (m ((c.tc : Thread Cert.KernelIdeal.nD Cert.KernelIdeal.τ).loc Cert.KernelIdeal.main_arg0)),
    Cert.KernelIdeal.FrameSumValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.FrameSumValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
